-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S129 : Shape := ⟨1, ![129]⟩
abbrev S101 : Shape := ⟨1, ![101]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S129 : S_.BroadcastsInDim S129 (![] : Fin 0 → Fin S129.rank)
  reducesTo_S129_S_d0 : S129.ReducesTo [0] S_
  bcast_S_S101 : S_.BroadcastsInDim S101 (![] : Fin 0 → Fin S101.rank)
  reducesTo_S101_S_d0 : S101.ReducesTo [0] S_

variable [Facts]

def fn {F : FTy → Type} [FloatOps F] (main_arg0 : FVec F S500000x128 .f32) (main_arg1 : FVec F S129 .f32) (main_arg2 : FVec F S101 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S129 .f32 := Host.absf main_arg1
  let main_cst_0 : FVec F S_ .f32 := constant S_ .f32 0x7F800000#32
  let main_v5 : FVec F S129 .f32 := broadcastInDim S129 ![] bcast_S_S129 main_cst_0
  let main_v6 : IVec S129 1 := cmpf .olt main_v4 main_v5
  let main_c_1 : IVec S_ 1 := constantI S_ 1 1#1
  let main_v7 : IVec S_ 1 := (fun x v => Host.reduce IntOp.andi x v reducesTo_S129_S_d0 h_S_) main_v6 main_c_1
  let main_v8 : IVec S_ 1 := andi main_v3 main_v7
  let main_v9 : FVec F S101 .f32 := Host.absf main_arg2
  let main_cst_2 : FVec F S_ .f32 := constant S_ .f32 0x7F800000#32
  let main_v10 : FVec F S101 .f32 := broadcastInDim S101 ![] bcast_S_S101 main_cst_2
  let main_v11 : IVec S101 1 := cmpf .olt main_v9 main_v10
  let main_c_3 : IVec S_ 1 := constantI S_ 1 1#1
  let main_v12 : IVec S_ 1 := (fun x v => Host.reduce IntOp.andi x v reducesTo_S101_S_d0 h_S_) main_v11 main_c_3
  let main_v13 : IVec S_ 1 := andi main_v8 main_v12
  main_v13
-- ==== Kernel.lean ====
abbrev S500000x128 : Shape := ⟨2, ![500000, 128]⟩
abbrev S129 : Shape := ⟨1, ![129]⟩
abbrev S101 : Shape := ⟨1, ![101]⟩
abbrev S128 : Shape := ⟨1, ![128]⟩
abbrev S_ : Shape := ⟨0, ![]⟩
abbrev S1x128 : Shape := ⟨2, ![1, 128]⟩
abbrev S128x1 : Shape := ⟨2, ![128, 1]⟩
abbrev S100 : Shape := ⟨1, ![100]⟩
abbrev S1x100 : Shape := ⟨2, ![1, 100]⟩
abbrev S128x100 : Shape := ⟨2, ![128, 100]⟩
abbrev S500000x100 : Shape := ⟨2, ![500000, 100]⟩
abbrev S5000x128 : Shape := ⟨2, ![5000, 128]⟩
abbrev S5000x100 : Shape := ⟨2, ![5000, 100]⟩
abbrev S5000 : Shape := ⟨1, ![5000]⟩
abbrev S5000x1 : Shape := ⟨2, ![5000, 1]⟩

abbrev nBuf : Space → Nat
  | .hbm => 30
  | .vmem => 6
  | .smem => 0
  | _ => 0

abbrev bufTy : (tb : Table) → Fin (tcTables nBuf tb) → BufTy
  | .hbm, ⟨0, _⟩ => ⟨S500000x128, .f32⟩
  | .hbm, ⟨1, _⟩ => ⟨S129, .f32⟩
  | .hbm, ⟨2, _⟩ => ⟨S101, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S128x1, .f32⟩
  | .hbm, ⟨12, _⟩ => ⟨S100, .f32⟩
  | .hbm, ⟨13, _⟩ => ⟨S1x100, .f32⟩
  | .hbm, ⟨14, _⟩ => ⟨S128x100, .f32⟩
  | .hbm, ⟨15, _⟩ => ⟨S128x100, .f32⟩
  | .hbm, ⟨16, _⟩ => ⟨S128x100, .f32⟩
  | .hbm, ⟨17, _⟩ => ⟨S128, .f32⟩
  | .hbm, ⟨18, _⟩ => ⟨S128x1, .f32⟩
  | .hbm, ⟨19, _⟩ => ⟨S100, .f32⟩
  | .hbm, ⟨20, _⟩ => ⟨S1x100, .f32⟩
  | .hbm, ⟨21, _⟩ => ⟨S128x100, .f32⟩
  | .hbm, ⟨22, _⟩ => ⟨S128x100, .f32⟩
  | .hbm, ⟨23, _⟩ => ⟨S128x100, .f32⟩
  | .hbm, ⟨24, _⟩ => ⟨S128x100, .f32⟩
  | .hbm, ⟨25, _⟩ => ⟨S_, .f32⟩
  | .hbm, ⟨26, _⟩ => ⟨S_, .f32⟩
  | .hbm, ⟨27, _⟩ => ⟨S128x100, .f32⟩
  | .hbm, ⟨28, _⟩ => ⟨S128x100, .f32⟩
  | .hbm, ⟨29, _⟩ => ⟨S500000x100, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S128x100, .f32⟩
  | .local _ .vmem, ⟨4, _⟩ => ⟨S5000x100, .f32⟩
  | .local _ .vmem, ⟨5, _⟩ => ⟨S5000x100, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S129_S128_1 : S129.Slices ![1] S128
  slices_S129_S128_0 : S129.Slices ![0] S128
  bcast_S_S128 : S_.BroadcastsInDim S128 (![] : Fin 0 → Fin S128.rank)
  shapeCasts_S128_S1x128 : S128.ShapeCasts S1x128
  bcast_S128_S128x1_0 : S128.BroadcastsInDim S128x1 (![0] : Fin 1 → Fin S128x1.rank)
  slices_S101_S100_1 : S101.Slices ![1] S100
  bcast_S100_S1x100_1 : S100.BroadcastsInDim S1x100 (![1] : Fin 1 → Fin S1x100.rank)
  bcast_S128x1_S128x100_0_1 : S128x1.BroadcastsInDim S128x100 (![0, 1] : Fin 2 → Fin S128x100.rank)
  bcast_S1x100_S128x100_0_1 : S1x100.BroadcastsInDim S128x100 (![0, 1] : Fin 2 → Fin S128x100.rank)
  slices_S101_S100_0 : S101.Slices ![0] S100
  bcast_S_S128x100 : S_.BroadcastsInDim S128x100 (![] : Fin 0 → Fin S128x100.rank)
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S5000x100_S5000x100_0_0 : ∀ a, (![0, 0] : Fin 2 → Nat) a + S5000x100.size a ≤ S5000x100.size a
  h_S5000x100 : 0 < S5000x100.numel
  dot_S5000x128_S128x100_S5000x100_1_0_0_1_n_n_wf : DotDims.WF S5000x128 S128x100 S5000x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x100.size a ≤ S128x100.size a
  hwx0_2 : ∀ i : grid0.Coords, EltTy.bits .f32 = 32 ∨ (Rect.block (s := S128x100) S128x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x100.size a ≤ S500000x100.size a
  hwx0_3 : ∀ i : grid0.Coords, EltTy.bits .f32 = 32 ∨ (Rect.block (s := S500000x100) S5000x100.size (cc0_transform_3 i) (hinb0_3 i)).WholeWords (EltTy.packing .f32)

variable [Facts₀]

def dot_S5000x128_S128x100_S5000x100_1_0_0_1_n_n : DotDims S5000x128 S128x100 S5000x100 where
  lhsContracting := [1]
  rhsContracting := [0]
  lhsNonContracting := [0]
  rhsNonContracting := [1]
  lhsBatch := []
  rhsBatch := []
  wf := dot_S5000x128_S128x100_S5000x100_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x128 : Shape := ⟨2, ![500000, 128]⟩
abbrev S129 : Shape := ⟨1, ![129]⟩
abbrev S101 : Shape := ⟨1, ![101]⟩
abbrev S_ : Shape := ⟨0, ![]⟩
abbrev S500000 : Shape := ⟨1, ![500000]⟩
abbrev S500000x1 : Shape := ⟨2, ![500000, 1]⟩
abbrev S128 : Shape := ⟨1, ![128]⟩
abbrev S1x128 : Shape := ⟨2, ![1, 128]⟩
abbrev S128x1 : Shape := ⟨2, ![128, 1]⟩
abbrev S100 : Shape := ⟨1, ![100]⟩
abbrev S1x100 : Shape := ⟨2, ![1, 100]⟩
abbrev S128x100 : Shape := ⟨2, ![128, 100]⟩
abbrev S500000x100 : Shape := ⟨2, ![500000, 100]⟩

abbrev nBuf : Space → Nat
  | .hbm => 47
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S129, .f32⟩
  | .hbm, ⟨2, _⟩ => ⟨S101, .f32⟩
  | .hbm, ⟨3, _⟩ => ⟨S_, .f32⟩
  | .hbm, ⟨4, _⟩ => ⟨S500000, .f32⟩
  | .hbm, ⟨5, _⟩ => ⟨S_, .f32⟩
  | .hbm, ⟨6, _⟩ => ⟨S500000, .f32⟩
  | .hbm, ⟨7, _⟩ => ⟨S500000, .f32⟩
  | .hbm, ⟨8, _⟩ => ⟨S500000x1, .f32⟩
  | .hbm, ⟨9, _⟩ => ⟨S500000x128, .f32⟩
  | .hbm, ⟨10, _⟩ => ⟨S500000x128, .f32⟩
  | .hbm, ⟨11, _⟩ => ⟨S500000x128, .f32⟩
  | .hbm, ⟨12, _⟩ => ⟨S_, .f32⟩
  | .hbm, ⟨13, _⟩ => ⟨S500000, .f32⟩
  | .hbm, ⟨14, _⟩ => ⟨S500000x1, .f32⟩
  | .hbm, ⟨15, _⟩ => ⟨S500000x128, .f32⟩
  | .hbm, ⟨16, _⟩ => ⟨S500000x128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S500000x128, .f32⟩
  | .hbm, ⟨22, _⟩ => ⟨S500000x128, .f32⟩
  | .hbm, ⟨23, _⟩ => ⟨S128, .f32⟩
  | .hbm, ⟨24, _⟩ => ⟨S128x1, .f32⟩
  | .hbm, ⟨25, _⟩ => ⟨S100, .f32⟩
  | .hbm, ⟨26, _⟩ => ⟨S1x100, .f32⟩
  | .hbm, ⟨27, _⟩ => ⟨S128x100, .f32⟩
  | .hbm, ⟨28, _⟩ => ⟨S128x100, .f32⟩
  | .hbm, ⟨29, _⟩ => ⟨S128x100, .f32⟩
  | .hbm, ⟨30, _⟩ => ⟨S128, .f32⟩
  | .hbm, ⟨31, _⟩ => ⟨S128x1, .f32⟩
  | .hbm, ⟨32, _⟩ => ⟨S100, .f32⟩
  | .hbm, ⟨33, _⟩ => ⟨S1x100, .f32⟩
  | .hbm, ⟨34, _⟩ => ⟨S128x100, .f32⟩
  | .hbm, ⟨35, _⟩ => ⟨S128x100, .f32⟩
  | .hbm, ⟨36, _⟩ => ⟨S128x100, .f32⟩
  | .hbm, ⟨37, _⟩ => ⟨S128x100, .f32⟩
  | .hbm, ⟨38, _⟩ => ⟨S_, .f32⟩
  | .hbm, ⟨39, _⟩ => ⟨S_, .f32⟩
  | .hbm, ⟨40, _⟩ => ⟨S128x100, .f32⟩
  | .hbm, ⟨41, _⟩ => ⟨S128x100, .f32⟩
  | .hbm, ⟨42, _⟩ => ⟨S500000x100, .f32⟩
  | .hbm, ⟨43, _⟩ => ⟨S_, .f32⟩
  | .hbm, ⟨44, _⟩ => ⟨S500000x100, .f32⟩
  | .hbm, ⟨45, _⟩ => ⟨S500000x100, .f32⟩
  | .hbm, ⟨46, _⟩ => ⟨S500000x100, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  reducesTo_S500000x128_S500000_d1 : S500000x128.ReducesTo [1] S500000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  slices_S129_S128_1 : S129.Slices ![1] S128
  slices_S129_S128_0 : S129.Slices ![0] S128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S128_S128x1_0 : S128.BroadcastsInDim S128x1 (![0] : Fin 1 → Fin S128x1.rank)
  slices_S101_S100_1 : S101.Slices ![1] S100
  bcast_S100_S1x100_1 : S100.BroadcastsInDim S1x100 (![1] : Fin 1 → Fin S1x100.rank)
  bcast_S128x1_S128x100_0_1 : S128x1.BroadcastsInDim S128x100 (![0, 1] : Fin 2 → Fin S128x100.rank)
  bcast_S1x100_S128x100_0_1 : S1x100.BroadcastsInDim S128x100 (![0, 1] : Fin 2 → Fin S128x100.rank)
  slices_S101_S100_0 : S101.Slices ![0] S100
  bcast_S_S128x100 : S_.BroadcastsInDim S128x100 (![] : Fin 0 → Fin S128x100.rank)
  bcast_S_S500000x100 : S_.BroadcastsInDim S500000x100 (![] : Fin 0 → Fin S500000x100.rank)
  dot_S500000x128_S128x100_S500000x100_1_0_0_1_n_n_wf : DotDims.WF S500000x128 S128x100 S500000x100 [1] [0] [0] [1] [] []

variable [Facts₀]

def dot_S500000x128_S128x100_S500000x100_1_0_0_1_n_n : DotDims S500000x128 S128x100 S500000x100 where
  lhsContracting := [1]
  rhsContracting := [0]
  lhsNonContracting := [0]
  rhsNonContracting := [1]
  lhsBatch := []
  rhsBatch := []
  wf := dot_S500000x128_S128x100_S500000x100_1_0_0_1_n_n_wf

class Facts : Prop extends Facts₀ where

variable [Facts]
-- ==== Proof.Spec.lean ====
/-
  The mathematics both programs compute, stated once over the extended reals.

  A row of 128 logits is turned into a probability vector by the shifted softmax
  (subtract the row's maximum, exponentiate, divide by the row's sum); each probability is divided by the width of
  its old bin (a density); the densities are integrated against the 128 x 100 matrix of overlap lengths between old
  and new bins; and the logarithm of the new mass plus the smallest normal float is taken.

  The two programs differ in one step only: one divides the probability by the width, the other multiplies it by the
  reciprocal of the width taken beforehand. On the extended reals the two agree as soon as the probability is
  strictly positive (`mul_recip`), the width being anything at all: off zero both are the product with the inverse,
  and at a zero width both are +∞. A probability of a row of real logits is strictly positive (`softmax_pos`).
-/
import Idealize.ShloMosaic.PureOps.Ideal
import Idealize.ShloMosaic.PureOps.Ideal.Laws
import Idealize.ShloMosaic.Lib.ValueIdx

noncomputable section

open scoped BigOperators

namespace Cert.Rebin

open Idealize.ShloMosaic Idealize.ShloMosaic.ValueIdx

/-- The word of -∞ denotes the bottom of the extended reals. -/
theorem negInf_eq_bot : Ideal.ofBits .f32 0xFF800000#32 = ⊥ := by simp [Ideal.ofBits, Ideal.ieee]

/-- A row's maximum: the fold of `max` from -∞ over the 128 bins. -/
def rowMax (f : Fin 128 → EReal) : EReal :=
  (Finset.univ : Finset (Fin 128)).fold max (Ideal.ofBits .f32 0xFF800000#32) f

/-- A row's shifted exponentials. -/
def rowExp (f : Fin 128 → EReal) (k : Fin 128) : EReal := Ideal.exp (f k - rowMax f)

/-- A row's softmax: the shifted exponential over the row's sum of them. -/
def softmax (f : Fin 128 → EReal) (k : Fin 128) : EReal := Ideal.div (rowExp f k) (∑ k' : Fin 128, rowExp f k')

/-- The rebinned log-mass: row `i 0` of the logits `x`, bin widths `wd`, overlap lengths `ov`, new bin `i 1`. -/
def G (x : (⟨2, ![500000, 128]⟩ : Shape).Idx → EReal) (wd : (⟨1, ![128]⟩ : Shape).Idx → EReal)
    (ov : (⟨2, ![128, 100]⟩ : Shape).Idx → EReal) : (⟨2, ![500000, 100]⟩ : Shape).Idx → EReal :=
  fun i => Ideal.log ((∑ k : Fin 128, Ideal.div (softmax (fun k' => x (ix2 (i 0) k')) k) (wd (ix1 k)) * ov (ix2 k (i 1)))
    + Ideal.ofBits .f32 0x00800000#32)

/-! ## The one law -/

/-- Multiplying a strictly positive extended real by the reciprocal of `w` is dividing it by `w`, for every `w`: off
    zero both are the product with `w⁻¹`; at zero the reciprocal is +∞, the product of a positive with it is +∞, and
    so is the quotient of a positive by zero. -/
theorem mul_recip (p w : EReal) (hp : 0 < p) : p * Ideal.div 1 w = Ideal.div p w := by
  unfold Ideal.div
  by_cases hw : w = 0
  · rw [if_pos hw, if_pos hw, if_pos hp, if_pos (by norm_num : (0 : EReal) < 1), EReal.mul_top_of_pos hp]
  · rw [if_neg hw, if_neg hw, one_mul]

/-! ## A row of real logits has strictly positive probabilities -/

/-- A finite sum of reals, summed in the extended reals, is the real sum. -/
theorem coe_sum {ι : Type*} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The maximum of a row of reals is a real: it is below +∞ because every entry and -∞ are, and above -∞ because it is
    at least the first entry. -/
theorem rowMax_real (r : Fin 128 → ℝ) : ∃ M : ℝ, rowMax (fun k => (r k : EReal)) = (M : EReal) := by
  have htop : rowMax (fun k => (r k : EReal)) ≠ ⊤ := by
    apply ne_of_lt
    unfold rowMax
    rw [Finset.fold_max_lt]
    exact ⟨by rw [negInf_eq_bot]; exact bot_lt_top, fun k _ => EReal.coe_lt_top _⟩
  have hbot : rowMax (fun k => (r k : EReal)) ≠ ⊥ := by
    apply ne_of_gt
    unfold rowMax
    rw [Finset.lt_fold_max]
    exact Or.inr ⟨0, Finset.mem_univ _, EReal.bot_lt_coe _⟩
  exact ⟨_, (EReal.coe_toReal htop hbot).symm⟩

/-- The softmax of a row of reals is strictly positive at every bin: each shifted exponential is a positive real, so is
    their sum, and the quotient of a positive real by a positive real is positive. -/
theorem softmax_pos (f : Fin 128 → EReal) (hf : ∀ k, ∃ r : ℝ, f k = (r : EReal)) (k : Fin 128) : 0 < softmax f k := by
  choose r hr using hf
  obtain rfl : f = fun k => (r k : EReal) := funext hr
  obtain ⟨M, hM⟩ := rowMax_real r
  have hexp : ∀ k, rowExp (fun k => (r k : EReal)) k = ((Real.exp (r k - M) : ℝ) : EReal) := fun k => by
    unfold rowExp
    rw [hM, ← EReal.coe_sub, Ideal.exp_coe]
  unfold softmax
  simp only [hexp]
  rw [coe_sum]
  have hS : (0 : ℝ) < ∑ k' : Fin 128, Real.exp (r k' - M) :=
    Finset.sum_pos (fun k' _ => Real.exp_pos _) ⟨0, Finset.mem_univ _⟩
  rw [Ideal.div_coe hS.ne', ← EReal.coe_mul]
  exact EReal.coe_pos.mpr (mul_pos (Real.exp_pos _) (one_div_pos.mpr hS))

end Cert.Rebin

end
-- ==== Proof.Finite.lean ====
/-
  What the precondition says of the logits: every entry is a real number. The precondition is the conjunction of three
  `jnp.all`s, one per input, of "the absolute value is below +∞"; an extended real whose absolute value — the larger of
  it and its negation — is below +∞ is neither infinity.
-/
import proofs.«155327_j67611375173676_1_alg».proof.Pre_finite_inputs
import proofs.«155327_j67611375173676_1_alg».proof.Proof.Gen.Pre_finite_inputs
import Idealize.ShloMosaic.Lib.ReduceAll
import Idealize.ShloMosaic.Lib.ValueIdx
import Idealize.ShloMosaic.PureOps.Ideal.Laws

noncomputable section

namespace Cert.Rebin.Finite

open Cert.Pre_finite_inputs Idealize.ShloMosaic Idealize.ShloMosaic.ValueIdx

/-- The scalar shape has one index. -/
instance : Subsingleton S_.Idx := ⟨fun a b => funext fun d => d.elim0⟩

/-- The word of +∞ denotes the top of the extended reals. -/
theorem posInf_eq_top : Ideal.ofBits .f32 0x7F800000#32 = ⊤ := by simp [Ideal.ofBits, Ideal.ieee]

/-- An extended real whose absolute value compares below +∞ is a real. -/
theorem real_of_abs_lt (x : Ideal .f32)
    (h : FloatOps.cmpf (F := Ideal) .olt (FloatOps.hostAbsf x) (FloatOps.ofBits .f32 0x7F800000#32) = 1#1) :
    ∃ r : ℝ, x = (r : EReal) := by
  have h' : max x (-x) < (⊤ : EReal) := by
    by_contra hn
    have h0 : FloatOps.cmpf (F := Ideal) (φ := .f32) .olt (FloatOps.hostAbsf x) (FloatOps.ofBits .f32 0x7F800000#32) = 0#1 := by
      show BitVec.ofBool (decide (max x (-x) < Ideal.ofBits .f32 0x7F800000#32)) = 0#1
      rw [posInf_eq_top, decide_eq_false hn]
      rfl
    rw [h0] at h
    exact absurd h (by decide)
  induction x using EReal.rec with
  | bot => exact absurd h' (by simp)
  | top => exact absurd h' (by simp)
  | coe r => exact ⟨r, rfl⟩

/-- Under the precondition every logit is a real number. -/
theorem logits_real (a0 : FVec Ideal S500000x128 .f32) (a1 : FVec Ideal S129 .f32) (a2 : FVec Ideal S101 .f32)
    (h : fn (F := Ideal) a0 a1 a2 = fun _ => 1#1) (i : S500000x128.Idx) : ∃ r : ℝ, a0 i = (r : EReal) := by
  have h0 := congrFun h ix0
  dsimp only [fn] at h0
  have h1 := (IntOp.andi_eq_one.mp h0).1
  have h2 := (IntOp.andi_eq_one.mp h1).1
  have h3 := Host.reduce_andi_all _ _ _ _ ix0 h2 i
  exact real_of_abs_lt (a0 i) h3

end Cert.Rebin.Finite

end
-- ==== Proof.RefValue.lean ====
/-
  The reference's result, read one element at a time, is the rebinned log-mass `G` of the logits, the old bins' widths
  and the overlap lengths. Its softmax is the shifted one (`jax.nn.softmax` subtracts the row's maximum, itself taken
  against -∞ once more, which changes nothing), its density the probability DIVIDED by the width, its product the plain
  sum over the 128 old bins.
-/
import proofs.«155327_j67611375173676_1_alg».proof.Proof.Gen.ReferenceIdeal.Read
import proofs.«155327_j67611375173676_1_alg».proof.Proof.Spec

noncomputable section

open scoped BigOperators

namespace Cert.Rebin.Ref

open Cert.ReferenceIdeal Cert.ReferenceIdeal.Gen Cert.ReferenceIdeal.Read
open Idealize.ShloMosaic Idealize.ShloMosaic.ValueIdx Cert.Rebin

/-- Row `r` of the [500000] vector of maxima with bin `k` put back is the entry (r, k) of the logits. -/
theorem lift_row (h : S500000x128.Reduces [1] S500000) (r : Fin 500000) (k : Fin (S500000x128.size 1)) :
    h.lift (ix1 r) k = ix2 r (⟨k.val, k.isLt⟩ : Fin 128) := by
  funext c; apply Fin.ext
  fin_cases c <;> rfl

/-- The maximum the reference subtracts from row `r` is the row's maximum: the host's reduce is the fold of `max` from
    -∞ over the row, and the further `max` against -∞ is the identity. -/
theorem ref_max (x0 : FVec Ideal S500000x128 .f32) (r : Fin 500000) :
    val_main_v2 (F := Ideal) x0 (ix1 r) = rowMax (fun k => x0 (ix2 r k)) := by
  rw [val_main_v2_apply, val_main_v1_apply, val_main_cst_0_apply]
  show max (Ideal.ofBits .f32 0xFF800000#32) (val_main_v0 (F := Ideal) x0 (ix1 r)) = _
  rw [negInf_eq_bot, max_eq_right bot_le]
  unfold val_main_v0
  rw [Host.reduce_eq_fold_single FloatOps.maximumf x0 _ reducesTo_S500000x128_S500000_d1 (by decide) h_S_]
  unfold rowMax
  exact congrArg (fun f => Finset.fold max (Ideal.ofBits .f32 0xFF800000#32) f (Finset.univ : Finset (Fin 128)))
    (funext fun k => congrArg x0 (lift_row _ r k))

/-- The reference's shifted exponential at (r, k) is the row's. -/
theorem ref_exp (x0 : FVec Ideal S500000x128 .f32) (r : Fin 500000) (k : Fin 128) :
    val_main_v6 (F := Ideal) x0 (ix2 r k) = rowExp (fun k' => x0 (ix2 r k')) k := by
  rw [val_main_v6_apply, val_main_v5_apply, val_main_v4_apply, val_main_v3_apply]
  have e : idx_main_v3 (idx_main_v4 (ix2 r k)) = ix1 r := funext fun a => by match a with | ⟨0, _⟩ => rfl
  rw [e, ref_max]
  rfl

/-- The reference's probability at (r, k) is the row's softmax: the host's sum over the row starts from zero. -/
theorem ref_softmax (x0 : FVec Ideal S500000x128 .f32) (r : Fin 500000) (k : Fin 128) :
    val_main_v10 (F := Ideal) x0 (ix2 r k) = softmax (fun k' => x0 (ix2 r k')) k := by
  rw [val_main_v10_apply, val_main_v9_apply, val_main_v8_apply, val_main_v7_apply, val_main_cst_1_apply]
  have e : idx_main_v8 (idx_main_v9 (ix2 r k)) = ix1 r := funext fun a => by match a with | ⟨0, _⟩ => rfl
  have e2 : ∀ k' : Fin 128, idx_main_v7 (ix1 r) k' = ix2 r k' := fun k' =>
    funext fun a => by match a with | ⟨0, _⟩ => rfl | ⟨1, _⟩ => rfl
  rw [e]
  simp only [e2, ref_exp]
  show Ideal.div _ (Ideal.ofBits .f32 0x00000000#32 + _) = _
  rw [Ideal.ofBits_zero_f32, zero_add]
  rfl

/-- The reference's density at (r, k): the probability divided by the width of old bin `k`. -/
theorem ref_density (x0 : FVec Ideal S500000x128 .f32) (x1 : FVec Ideal S129 .f32) (r : Fin 500000) (k : Fin 128) :
    val_main_v16 (F := Ideal) x0 x1 (ix2 r k)
      = Ideal.div (softmax (fun k' => x0 (ix2 r k')) k) (val_main_v13 (F := Ideal) x1 (ix1 k)) := by
  rw [val_main_v16_apply, val_main_v15_apply, val_main_v14_apply, ref_softmax]
  have e : idx_main_v14 (idx_main_v15 (ix2 r k)) = ix1 k := funext fun a => by match a with | ⟨0, _⟩ => rfl
  rw [e]
  rfl

/-- The reference's result is `G` of the logits, the widths and the overlap lengths. -/
theorem ref_eq (x0 : FVec Ideal S500000x128 .f32) (x1 : FVec Ideal S129 .f32) (x2 : FVec Ideal S101 .f32) :
    val_main_v36 (F := Ideal) x0 x1 x2 = G x0 (val_main_v13 (F := Ideal) x1) (val_main_v32 (F := Ideal) x1 x2) := by
  funext i
  obtain ⟨r, q, rfl⟩ : ∃ (r : Fin 500000) (q : Fin 100), i = ix2 r q := ⟨i 0, i 1, eq_ix2 i⟩
  rw [val_main_v36_apply, val_main_v35_apply, val_main_v33_apply, val_main_v34_apply, val_main_cst_3_apply]
  have el : ∀ k : Fin 128, lidx_main_v33 (ix2 r q) k = ix2 r k := fun k =>
    funext fun a => by match a with | ⟨0, _⟩ => rfl | ⟨1, _⟩ => rfl
  have er : ∀ k : Fin 128, ridx_main_v33 (ix2 r q) k = ix2 k q := fun k =>
    funext fun a => by match a with | ⟨0, _⟩ => rfl | ⟨1, _⟩ => rfl
  simp only [el, er, ref_density]
  rfl

end Cert.Rebin.Ref

end
-- ==== Proof.KernelValue.lean ====
/-
  The kernel body's one store, read one element at a time. On a block of 5000 rows, with the row of reciprocal widths
  and the overlap matrix, the stored value at (p, q) is the logarithm of the smallest normal float plus the sum over
  the 128 old bins of softmax(row p)(k) TIMES the reciprocal width of bin k times the overlap of old bin k with new
  bin q. The row maximum is the fold of `max` from -∞ over the row's lanes, the row sum the sum over them, the column
  of maxima or of sums is cast to [5000, 1] and broadcast along the lanes, and the matrix product into a zero
  accumulator is the plain sum over the contracted axis.
-/
import proofs.«155327_j67611375173676_1_alg».proof.Proof.Gen.KernelIdeal.Skeleton
import proofs.«155327_j67611375173676_1_alg».proof.Proof.Spec
import Idealize.ShloMosaic.Lib.Pipeline.Value
import Idealize.ShloMosaic.Lib.ValueLayout
import Idealize.ShloMosaic.PureOps.Ideal.Laws

noncomputable section

open scoped BigOperators

namespace Cert.Rebin.Kern

open Cert.KernelIdeal Cert.KernelIdeal.Gen
open Idealize.ShloMosaic Idealize.ShloMosaic.ValueIdx Cert.Rebin

/-! ## Two layout steps: a column cast to [a, 1], and a column broadcast along the lanes -/

/-- An [a] vector cast to [a, 1] reads, at (p, u), the vector at p. -/
theorem shapeCast_col_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions along the lanes of a block -/

/-- Row `p` of the [5000] vector of a block's row results with lane `k` put back is the block's entry (p, k). -/
theorem lift_lane (h : S5000x128.Reduces [1] S5000) (p : Fin 5000) (k : Fin (S5000x128.size 1)) :
    h.lift (ix1 p) k = ix2 p (⟨k.val, k.isLt⟩ : Fin 128) := by
  funext c; apply Fin.ext
  fin_cases c <;> rfl

/-- The block's row maximum at row `p` is the row's maximum. -/
theorem blk_max (X : FVec Ideal S5000x128 .f32) (p : Fin 5000) (hφ : FKind.Formats .f32)
    (hacc : (0xFF800000#32 : BitVec 32) = 0xFF800000#32) :
    multiReduction .maximumf [1] S5000 X 0xFF800000#32 reduces_S5000x128_S5000 hφ hacc (ix1 p)
      = rowMax (fun k => X (ix2 p k)) := by
  refine (Ideal.multiReduction_maximumf_single X 0xFF800000#32 reduces_S5000x128_S5000 hφ hacc (ix1 p)).trans ?_
  unfold rowMax
  exact congrArg (fun f => Finset.fold max (Ideal.ofBits .f32 0xFF800000#32) f (Finset.univ : Finset (Fin 128)))
    (funext fun k => congrArg X (lift_lane _ p k))

/-- A block's row sum at row `p` is the sum over the row's lanes. -/
theorem blk_sum (E : FVec Ideal S5000x128 .f32) (p : Fin 5000) (hφ : FKind.Formats .f32)
    (hacc : (0x00000000#32 : BitVec 32) = 0x00000000#32) :
    multiReduction .add [1] S5000 E 0x00000000#32 reduces_S5000x128_S5000 hφ hacc (ix1 p)
      = ∑ k : Fin 128, E (ix2 p k) := by
  refine (Ideal.multiReduction_add_single E 0x00000000#32 reduces_S5000x128_S5000 hφ hacc (ix1 p)).trans ?_
  exact Finset.sum_congr rfl fun k _ => congrArg E (lift_lane _ p k)

/-! ## The elementwise operations and the matrix product at an index -/

theorem log_apply {s : Shape} (v : FVec Ideal s .f32) (i : s.Idx) : log v i = Ideal.log (v i) := rfl
theorem exp_apply {s : Shape} (v : FVec Ideal s .f32) (i : s.Idx) : exp v i = Ideal.exp (v i) := rfl

/-- The product's left operand index at output (p, ·) and contraction coordinate k is (p, k) … -/
theorem lhs_dot_0 (i : S5000x100.Idx) (q : dot_S5000x128_S128x100_S5000x100_1_0_0_1_n_n.contr.Idx) :
    (dot_S5000x128_S128x100_S5000x100_1_0_0_1_n_n.lhsIdx i q 0).val = (i 0).val := by
  unfold DotDims.lhsIdx
  rw [dif_neg (show ¬(0 : Fin S5000x128.rank) ∈ dot_S5000x128_S128x100_S5000x100_1_0_0_1_n_n.lhsBatch by decide), dif_pos (show (0 : Fin S5000x128.rank) ∈ dot_S5000x128_S128x100_S5000x100_1_0_0_1_n_n.lhsNonContracting by decide)]
  rfl
theorem lhs_dot_1 (i : S5000x100.Idx) (q : dot_S5000x128_S128x100_S5000x100_1_0_0_1_n_n.contr.Idx) :
    (dot_S5000x128_S128x100_S5000x100_1_0_0_1_n_n.lhsIdx i q 1).val = (q ⟨0, by decide⟩).val :=
  dot_S5000x128_S128x100_S5000x100_1_0_0_1_n_n.lhsIdx_val_of_single rfl i q
/-- … and its right operand index is (k, q). -/
theorem rhs_dot_0 (i : S5000x100.Idx) (q : dot_S5000x128_S128x100_S5000x100_1_0_0_1_n_n.contr.Idx) :
    (dot_S5000x128_S128x100_S5000x100_1_0_0_1_n_n.rhsIdx i q 0).val = (q ⟨0, by decide⟩).val :=
  dot_S5000x128_S128x100_S5000x100_1_0_0_1_n_n.rhsIdx_val_of_single rfl i q
theorem rhs_dot_1 (i : S5000x100.Idx) (q : dot_S5000x128_S128x100_S5000x100_1_0_0_1_n_n.contr.Idx) :
    (dot_S5000x128_S128x100_S5000x100_1_0_0_1_n_n.rhsIdx i q 1).val = (i 1).val := by
  unfold DotDims.rhsIdx
  rw [dif_neg (show ¬(1 : Fin S128x100.rank) ∈ dot_S5000x128_S128x100_S5000x100_1_0_0_1_n_n.rhsBatch by decide), dif_pos (show (1 : Fin S128x100.rank) ∈ dot_S5000x128_S128x100_S5000x100_1_0_0_1_n_n.rhsNonContracting by decide)]
  rfl

/-- The block's matrix product into the zero accumulator, at (p, q): the sum over the 128 old bins. -/
theorem matmul_zero_apply (A : FVec Ideal S5000x128 .f32) (B : FVec Ideal S128x100 .f32) (p : Fin 5000) (q : Fin 100) :
    matmul dot_S5000x128_S128x100_S5000x100_1_0_0_1_n_n (some .fp32) A B (constant S5000x100 .f32 0x00000000#32) (ix2 p q)
      = ∑ k : Fin 128, A (ix2 p k) * B (ix2 k q) := by
  simp only [matmul]
  rw [Ideal.matmul_constant_zero_apply, ← Equiv.sum_comp (contrEquiv1 dot_S5000x128_S128x100_S5000x100_1_0_0_1_n_n 128 rfl rfl).symm]
  refine Finset.sum_congr rfl fun k _ => ?_
  have hk := contrEquiv1_symm_val dot_S5000x128_S128x100_S5000x100_1_0_0_1_n_n 128 rfl rfl k
  have el : dot_S5000x128_S128x100_S5000x100_1_0_0_1_n_n.lhsIdx (ix2 p q) ((contrEquiv1 dot_S5000x128_S128x100_S5000x100_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x100_S5000x100_1_0_0_1_n_n.rhsIdx (ix2 p q) ((contrEquiv1 dot_S5000x128_S128x100_S5000x100_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The body's softmax and its stored value -/

/-- The block's shifted exponential at (p, k) is row p's. -/
theorem blk_exp (X : FVec Ideal S5000x128 .f32) (p : Fin 5000) (k : Fin 128) (hφ : FKind.Formats .f32)
    (hacc : (0xFF800000#32 : BitVec 32) = 0xFF800000#32) (hsc : S5000.ShapeCasts S5000x1) (hbc : S5000x1.Broadcasts S5000x128) :
    exp (subf X (broadcastTo S5000x128 (shapeCast S5000x1
        (multiReduction .maximumf [1] S5000 X 0xFF800000#32 reduces_S5000x128_S5000 hφ hacc) hsc) hbc)) (ix2 p k)
      = rowExp (fun k' => X (ix2 p k')) k := by
  rw [exp_apply, subf_apply, broadcastTo_col_apply, shapeCast_col_apply, blk_max]
  rfl

/-- The block's probability at (p, k) is row p's softmax. -/
theorem blk_softmax (X : FVec Ideal S5000x128 .f32) (p : Fin 5000) (k : Fin 128) (hφ : FKind.Formats .f32)
    (hacc : (0xFF800000#32 : BitVec 32) = 0xFF800000#32) (hacc0 : (0x00000000#32 : BitVec 32) = 0x00000000#32)
    (hsc : S5000.ShapeCasts S5000x1) (hbc : S5000x1.Broadcasts S5000x128) :
    divf (exp (subf X (broadcastTo S5000x128 (shapeCast S5000x1
          (multiReduction .maximumf [1] S5000 X 0xFF800000#32 reduces_S5000x128_S5000 hφ hacc) hsc) hbc)))
        (broadcastTo S5000x128 (shapeCast S5000x1
          (multiReduction .add [1] S5000 (exp (subf X (broadcastTo S5000x128 (shapeCast S5000x1
            (multiReduction .maximumf [1] S5000 X 0xFF800000#32 reduces_S5000x128_S5000 hφ hacc) hsc) hbc)))
            0x00000000#32 reduces_S5000x128_S5000 hφ hacc0) hsc) hbc) (ix2 p k)
      = softmax (fun k' => X (ix2 p k')) k := by
  rw [divf_apply, broadcastTo_col_apply, shapeCast_col_apply, blk_sum]
  unfold softmax
  rw [blk_exp X p k hφ hacc hsc hbc]
  exact congrArg (Ideal.div _) (Finset.sum_congr rfl fun k' _ => blk_exp X p k' hφ hacc hsc hbc)

/-- THE STORED VALUE at (p, q): the logarithm of the smallest normal float plus the sum over the old bins of the
    probability times the reciprocal width times the overlap length. -/
theorem pay_apply (X : Vec Ideal S5000x128 .f32) (IW : Vec Ideal S1x128 .f32) (OV : Vec Ideal S128x100 .f32)
    (p : Fin 5000) (q : Fin 100) :
    k0_pay1 (F := Ideal) X IW OV (ix2 p q)
      = Ideal.log ((∑ k : Fin 128, (softmax (fun k' => X (ix2 p k')) k * IW (ix2 (0 : Fin 1) k)) * OV (ix2 k q))
          + Ideal.ofBits .f32 0x00800000#32) := by
  unfold k0_pay1
  dsimp only
  rw [log_apply, addf_apply, matmul_zero_apply]
  refine congrArg Ideal.log (congrArg₂ (· + ·) (Finset.sum_congr rfl fun k _ => ?_) rfl)
  rw [shapeCast_self, mulf_apply, blk_softmax, broadcastTo_1b_ab_apply, shapeCast_self]

end Cert.Rebin.Kern

end
-- ==== Proof.KernelRun.lean ====
/-
  From blocks to the whole array. Grid point t of the hundred stages rows [5000 t, 5000 t + 5000) of the logits, the
  whole row of reciprocal widths and the whole overlap matrix, and writes back rows [5000 t, 5000 t + 5000) of the
  result. The host operations before the call leave, in the second operand, the reciprocal 1 / width of every old bin,
  and in the third the overlap lengths. So what point t writes back is block t of the rebinned log-mass `G`: at a row
  of real logits the probability is strictly positive, and the product with the reciprocal width is the quotient by
  the width. The hundred blocks tile the 500000 rows, so the array after the run is `G`.
-/
import proofs.«155327_j67611375173676_1_alg».proof.Proof.Gen.KernelIdeal.Value
import proofs.«155327_j67611375173676_1_alg».proof.Proof.KernelValue
import Idealize.ShloMosaic.Lib.StableHlo.Run
import Idealize.ShloMosaic.PureOps.IdealRules

noncomputable section

open scoped BigOperators

namespace Cert.Rebin.Kern

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.Rebin
open Idealize.ShloMosaic.Pipeline (Dat)

variable (m : (ℓ : Loc nD τ sig) → Buf (Elt Ideal) ℓ) (ρ : Dev nD → PrngReg)

/-! ## What the host operations before the call compute -/

/-- The old bins' widths: the edges from the second on minus the edges up to the last but one. -/
def widths (x1 : FVec Ideal S129 .f32) : FVec Ideal S128 .f32 :=
  subf (extractStridedSlice S128 ![1] x1 slices_S129_S128_1) (extractStridedSlice S128 ![0] x1 slices_S129_S128_0)

/-- The row of reciprocal widths the call's second operand holds. -/
def recipWidths (x1 : FVec Ideal S129 .f32) : FVec Ideal S1x128 .f32 :=
  shapeCast S1x128 (Host.divf (broadcastInDim S128 ![] bcast_S_S128 (constant S_ .f32 0x3F800000#32)) (widths x1))
    shapeCasts_S128_S1x128

/-- The overlap length of old bin k with new bin j: the smaller of the two right edges minus the larger of the two
    left edges, clipped at zero. -/
def overlap (x1 : FVec Ideal S129 .f32) (x2 : FVec Ideal S101 .f32) : FVec Ideal S128x100 .f32 :=
  maximumf (broadcastInDim S128x100 ![] bcast_S_S128x100 (id (constant S_ .f32 0x00000000#32)))
    (subf
      (minimumf
        (broadcastInDim S128x100 ![0, 1] bcast_S128x1_S128x100_0_1 (broadcastInDim S128x1 ![0] bcast_S128_S128x1_0
          (extractStridedSlice S128 ![1] x1 slices_S129_S128_1)))
        (broadcastInDim S128x100 ![0, 1] bcast_S1x100_S128x100_0_1 (broadcastInDim S1x100 ![1] bcast_S100_S1x100_1
          (extractStridedSlice S100 ![1] x2 slices_S101_S100_1))))
      (maximumf
        (broadcastInDim S128x100 ![0, 1] bcast_S128x1_S128x100_0_1 (broadcastInDim S128x1 ![0] bcast_S128_S128x1_0
          (extractStridedSlice S128 ![0] x1 slices_S129_S128_0)))
        (broadcastInDim S128x100 ![0, 1] bcast_S1x100_S128x100_0_1 (broadcastInDim S1x100 ![1] bcast_S100_S1x100_1
          (extractStridedSlice S100 ![0] x2 slices_S101_S100_0)))))

/-- The call's second operand, as the region finds it, is the row of reciprocal widths. -/
theorem V_recip (c : Dev nD) :
    (V m c main_v5 : S1x128.Idx → EReal) = recipWidths (m ((c : Thread nD τ).loc main_arg1)) := by
  dsimp only [Gen.V]
  simp only [Gen.hostOps0, Gen.hostOps0_1, List.flatten_cons, List.flatten_nil, List.append_nil, List.cons_append,
    List.nil_append]
  after_results
  rfl

/-- The call's third operand, as the region finds it, is the overlap matrix. -/
theorem V_overlap (c : Dev nD) :
    (V m c main_v21 : S128x100.Idx → EReal)
      = overlap (m ((c : Thread nD τ).loc main_arg1)) (m ((c : Thread nD τ).loc main_arg2)) := by
  dsimp only [Gen.V]
  simp only [Gen.hostOps0, Gen.hostOps0_1, List.flatten_cons, List.flatten_nil, List.append_nil, List.cons_append,
    List.nil_append]
  after_results
  rfl

/-- The word of 1.0 denotes 1. -/
theorem one_f32 : Ideal.ofBits .f32 0x3F800000#32 = 1 := IdealRules.sign_bit.ideal_onePat .f32

/-- The row of reciprocal widths at bin k is 1 over the width of bin k. -/
theorem recip_apply (x1 : FVec Ideal S129 .f32) (u : Fin 1) (k : Fin 128) :
    recipWidths x1 (ix2 u k) = Ideal.div 1 (widths x1 (ix1 k)) := by
  unfold recipWidths
  rw [shapeCast_a_1a_apply]
  show Ideal.div (Ideal.ofBits .f32 0x3F800000#32) _ = _
  rw [one_f32]

/-! ## The windows' blocks -/

theorem hz : (![0, 0] : Fin 2 → Nat) = fun _ => 0 := funext fun a => by fin_cases a <;> rfl

/-- The printed index maps, decided over the hundred points: the logits' and the result's block index is (t, 0), the
    two resident operands' is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row of the result is some point's. -/
theorem idx_onto : ∀ q0 : Fin 100, ∃ t : Fin cfg0.N, win0_3.index t = ![q0.val, 0] :=
  (by decide +kernel : ∀ q0 : Fin 100, ∃ t : Fin grid0.N, win0_3.index t = ![q0.val, 0])

/-- The three input blocks at point t, at their literal types. -/
abbrev xblk (c : Dev nD) (t : Fin cfg0.N) : Vec Ideal S5000x128 .f32 := iblk m c 0 t
abbrev wblk (c : Dev nD) (t : Fin cfg0.N) : Vec Ideal S1x128 .f32 := iblk m c 1 t
abbrev oblk (c : Dev nD) (t : Fin cfg0.N) : Vec Ideal S128x100 .f32 := iblk m c 2 t

/-- The array row that local row p of point t's block is. -/
def row (t : Fin cfg0.N) (p : Fin 5000) : Fin 500000 :=
  ⟨t.val * 5000 + p.val, by
    have ht : t.val < 100 := Nat.lt_of_lt_of_eq t.isLt N_0
    have := p.isLt; omega⟩

/-- The logits' block at point t reads rows 5000 t onward of the logits. -/
theorem xblk_apply (c : Dev nD) (t : Fin cfg0.N) (p : Fin 5000) (k : Fin 128) :
    xblk m c t (ix2 p k) = ((m ((c : Thread nD τ).loc main_arg0)) : S500000x128.Idx → EReal) (ix2 (row t p) k) := by
  rw [← V_main_arg0 m c]
  show (V m c main_arg0 : S500000x128.Idx → EReal) (((cfg0.win 0).blk t).view.emb (ix2 p k)) = _
  obtain ⟨e0, e1, -⟩ := idx_facts t
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The second operand's block is the whole row of reciprocal widths, at every point. -/
theorem wblk_apply (c : Dev nD) (t : Fin cfg0.N) (u : Fin 1) (k : Fin 128) :
    wblk m c t (ix2 u k) = recipWidths (m ((c : Thread nD τ).loc main_arg1)) (ix2 u k) := by
  rw [← V_recip m c]
  show (V m c main_v5 : S1x128.Idx → EReal) (((cfg0.win 1).blk t).view.emb (ix2 u k)) = _
  obtain ⟨-, -, e0, e1, -⟩ := idx_facts t
  refine congrArg _ (funext fun a => Fin.ext ?_)
  match a with
  | ⟨0, _⟩ => show win0_1.index t (0 : Fin 2) * 1 + 1 * u.val = u.val; rw [e0]; omega
  | ⟨1, _⟩ => show win0_1.index t (1 : Fin 2) * 128 + 1 * k.val = k.val; rw [e1]; omega

/-- The third operand's block is the whole overlap matrix, at every point. -/
theorem oblk_apply (c : Dev nD) (t : Fin cfg0.N) (k : Fin 128) (q : Fin 100) :
    oblk m c t (ix2 k q) = overlap (m ((c : Thread nD τ).loc main_arg1)) (m ((c : Thread nD τ).loc main_arg2)) (ix2 k q) := by
  rw [← V_overlap m c]
  show (V m c main_v21 : S128x100.Idx → EReal) (((cfg0.win 2).blk t).view.emb (ix2 k q)) = _
  obtain ⟨-, -, -, -, e0, e1, -⟩ := idx_facts t
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 100 + 1 * q.val = q.val; rw [e1]; omega

/-! ## What a point writes back, and the array after the run -/

/-- WHAT POINT t WRITES BACK is block t of the rebinned log-mass of the arguments, when the logits are real numbers. -/
theorem flushed_eq (c : Dev nD)
    (hfin : ∀ i, ∃ r : ℝ, ((m ((c : Thread nD τ).loc main_arg0)) : S500000x128.Idx → EReal) i = (r : EReal)) (t : Fin cfg0.N) :
    (dats m 0 c).flushed 3 t = ((cfg0.win 3).blk t).view.read (Elt Ideal) (G (m ((c : Thread nD τ).loc main_arg0)) (widths (m ((c : Thread nD τ).loc main_arg1))) (overlap (m ((c : Thread nD τ).loc main_arg1)) (m ((c : Thread nD τ).loc main_arg2)))) := by
  rw [flushed3]
  unfold out0_3
  rw [View.canon_unit_zero hz]
  simp only [View.ld_unit_zero (S := S5000x128) hz, View.ld_unit_zero (S := S1x128) hz, View.ld_unit_zero (S := S128x100) hz]
  funext j
  obtain ⟨p, q, rfl⟩ : ∃ (p : Fin 5000) (q : Fin 100), j = ix2 p q := ⟨j 0, j 1, eq_ix2 (n0 := 5000) (n1 := 100) j⟩
  have hemb : ((cfg0.win 3).blk t).view.emb (ix2 p q) = ix2 (row t p) q := by
    obtain ⟨-, -, -, -, -, -, e0, e1⟩ := idx_facts t
    refine funext fun a => Fin.ext ?_
    match a with
    | ⟨0, _⟩ => show win0_3.index t (0 : Fin 2) * 5000 + 1 * p.val = t.val * 5000 + p.val; rw [e0]; omega
    | ⟨1, _⟩ => show win0_3.index t (1 : Fin 2) * 100 + 1 * q.val = q.val; rw [e1]; omega
  show k0_pay1 (xblk m c t) (wblk m c t) (oblk m c t) (ix2 p q) = (G (m ((c : Thread nD τ).loc main_arg0)) (widths (m ((c : Thread nD τ).loc main_arg1))) (overlap (m ((c : Thread nD τ).loc main_arg1)) (m ((c : Thread nD τ).loc main_arg2)))) (((cfg0.win 3).blk t).view.emb (ix2 p q))
  rw [hemb]
  refine (pay_apply (xblk m c t) (wblk m c t) (oblk m c t) p q).trans ?_
  refine congrArg Ideal.log (congrArg₂ (· + ·) (Finset.sum_congr rfl fun k _ => ?_) rfl)
  have hx : (fun k' => xblk m c t (ix2 p k')) = fun k' => ((m ((c : Thread nD τ).loc main_arg0)) : S500000x128.Idx → EReal) (ix2 (row t p) k') :=
    funext fun k' => xblk_apply m c t p k'
  rw [hx, wblk_apply, oblk_apply, recip_apply]
  rw [mul_recip _ _ (softmax_pos _ (fun k' => hfin _) k)]

/-- An index of the result is in point t's block iff each coordinate is in the block's range on its axis. -/
theorem mem_blk (t : Fin cfg0.N) (i : S500000x100.Idx) :
    i ∈ ((cfg0.win 3).blk t).view.set ↔ ∀ a : Fin 2, win0_3.index t a * S5000x100.size a ≤ (i a).val ∧ (i a).val < win0_3.index t a * S5000x100.size a + S5000x100.size a := by
  show i ∈ ((View.whole main_v22).slice (win0_3.rect t)).set ↔ _
  rw [View.set_slice_whole, Rect.mem_set_unit]
  exact Iff.rfl

/-- Every index of the result is in the block of the point its row falls in. -/
theorem covered (i : S500000x100.Idx) :
    ∃ t : Fin cfg0.N, (cfg0.win 3).flush t = true ∧ i ∈ ((cfg0.win 3).blk t).view.set := by
  have hi0 : (i 0).val < 500000 := (i 0).isLt
  have hi1 : (i 1).val < 100 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 100 ≤ (i 1).val ∧ (i 1).val < win0_3.index t (1 : Fin 2) * 100 + 100; omega

/-- THE ARRAY after the run is the rebinned log-mass of the arguments. -/
theorem final (c : Dev nD)
    (hfin : ∀ i, ∃ r : ℝ, ((m ((c : Thread nD τ).loc main_arg0)) : S500000x128.Idx → EReal) i = (r : EReal)) :
    (dats m 0 c).arrAt 3 cfg0.N = (G (m ((c : Thread nD τ).loc main_arg0)) (widths (m ((c : Thread nD τ).loc main_arg1))) (overlap (m ((c : Thread nD τ).loc main_arg1)) (m ((c : Thread nD τ).loc main_arg2)))) :=
  (dats m 0 c).arrAt_eq_of_cover 3 _ (fun t _ => flushed_eq m c hfin t) covered

/-- The kernel's run, read: from real logits the result array ends at the rebinned log-mass of the arguments, and the
    arguments are unchanged. -/
theorem run (hfin : ∀ (c : Dev nD) i, ∃ r : ℝ, ((m ((c : Thread nD τ).loc main_arg0)) : S500000x128.Idx → EReal) i = (r : EReal)) :
    θ_run defs (onTc (τ := τ) (main (F := Ideal))) ⟨m, fun _ => 0, ρ⟩ fun r => ∀ c : Dev nD,
      r.2.mem ((c : Thread nD τ).loc main_v22) = (G (m ((c : Thread nD τ).loc main_arg0)) (widths (m ((c : Thread nD τ).loc main_arg1))) (overlap (m ((c : Thread nD τ).loc main_arg1)) (m ((c : Thread nD τ).loc main_arg2))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hfin c)), (h c).2⟩) (run_blocks m ρ)

end Cert.Rebin.Kern

end
-- ==== Proof.lean ====
/-
  The certificate of the histogram re-binning kernel against its jnp reference, over the extended reals.

  Both programs compute, for every row of 128 logits and every one of 100 new bins, the logarithm of
      tiny + Σ_k softmax(row)_k / width_k · overlap_{k, j},
  where width_k is the length of old bin k and overlap_{k, j} the length of the intersection of old bin k with new
  bin j, clipped at zero. The reference divides the probability by the width; the kernel multiplies it by 1 / width,
  taken once on the host before the call. For a strictly positive probability the two are one extended real for every
  width (off zero both are the product with the inverse; at zero both are +∞), and the softmax of a row of real logits
  is strictly positive: this is where the precondition, every input finite, is used. The row maxima, the sums, the
  exponentials, the matrix product into a zero accumulator, the overlap matrix and the final logarithm are the same
  operations on both sides.

  The kernel's run is read off its hundred blocks of 5000 rows, which tile the array; the reference's run one host
  operation at a time.
-/
import proofs.«155327_j67611375173676_1_alg».proof.Defs
import proofs.«155327_j67611375173676_1_alg».proof.Proof.Gen.Kernel
import proofs.«155327_j67611375173676_1_alg».proof.Proof.Gen.Kernel.Skeleton
import proofs.«155327_j67611375173676_1_alg».proof.Proof.Gen.Kernel.Launch
import proofs.«155327_j67611375173676_1_alg».proof.Proof.Gen.Kernel.Points
import proofs.«155327_j67611375173676_1_alg».proof.Proof.Gen.Kernel.Frame
import proofs.«155327_j67611375173676_1_alg».proof.Proof.Gen.KernelIdeal
import proofs.«155327_j67611375173676_1_alg».proof.Proof.Gen.KernelIdeal.Skeleton
import proofs.«155327_j67611375173676_1_alg».proof.Proof.Gen.KernelIdeal.Launch
import proofs.«155327_j67611375173676_1_alg».proof.Proof.Gen.KernelIdeal.Points
import proofs.«155327_j67611375173676_1_alg».proof.Proof.Gen.KernelIdeal.Frame
import proofs.«155327_j67611375173676_1_alg».proof.Proof.Gen.ReferenceIdeal
import proofs.«155327_j67611375173676_1_alg».proof.Proof.Gen.KernelIdeal.Value
import proofs.«155327_j67611375173676_1_alg».proof.Proof.Gen.ReferenceIdeal.Run
import proofs.«155327_j67611375173676_1_alg».proof.Proof.Gen.ReferenceIdeal.Read
import proofs.«155327_j67611375173676_1_alg».proof.Proof.Gen.Pre_finite_inputs
import proofs.«155327_j67611375173676_1_alg».proof.Proof.Spec
import proofs.«155327_j67611375173676_1_alg».proof.Proof.Finite
import proofs.«155327_j67611375173676_1_alg».proof.Proof.RefValue
import proofs.«155327_j67611375173676_1_alg».proof.Proof.KernelValue
import proofs.«155327_j67611375173676_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The widths the kernel's host operations take are the reference's: the same two slices of the old edges, subtracted. -/
theorem widths_eq (x1 : FVec Ideal Cert.KernelIdeal.S129 .f32) :
    Cert.Rebin.Kern.widths x1 = Cert.ReferenceIdeal.Read.val_main_v13 (F := Ideal) x1 := rfl

/-- The overlap matrix the kernel's host operations build is the reference's: the same minima, maxima, difference and clip. -/
theorem overlap_eq (x1 : FVec Ideal Cert.KernelIdeal.S129 .f32) (x2 : FVec Ideal Cert.KernelIdeal.S101 .f32) :
    Cert.Rebin.Kern.overlap x1 x2 = Cert.ReferenceIdeal.Read.val_main_v32 (F := Ideal) x1 x2 := rfl

/-- From memories agreeing on the arguments, under the precondition, both programs end with the rebinned log-mass of
    the arguments in their result arrays. -/
theorem algebraic : Cert.algebraic_KernelIdeal_ReferenceIdeal := by
  intro m ρ m' ρ' hpre hagree
  have hfin : ∀ (c : Dev Cert.KernelIdeal.nD) i, ∃ r : ℝ,
      (m ((c : Thread Cert.KernelIdeal.nD Cert.KernelIdeal.τ).loc Cert.KernelIdeal.main_arg0) : Cert.KernelIdeal.S500000x128.Idx → EReal) i = (r : EReal) :=
    fun c i => Cert.Rebin.Finite.logits_real _ _ _ (hpre c) i
  refine ⟨_, Cert.Rebin.Kern.run m ρ hfin, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v36_eq _ _ _).trans ((Cert.Rebin.Ref.ref_eq _ _ _).trans ?_)
  rw [(hagree c).1, (hagree c).2.1, (hagree c).2.2, widths_eq, overlap_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
